-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S50000x128 .f32) (main_arg1 : IVec S2x640000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S50000 : Shape := ⟨1, ![50000]⟩
abbrev S640000x1 : Shape := ⟨2, ![640000, 1]⟩
abbrev S50000x1 : Shape := ⟨2, ![50000, 1]⟩
abbrev S640000x128 : Shape := ⟨2, ![640000, 128]⟩
abbrev S50000x256 : Shape := ⟨2, ![50000, 256]⟩
abbrev S256x128 : Shape := ⟨2, ![256, 128]⟩
abbrev S1x128 : Shape := ⟨2, ![1, 128]⟩
abbrev S5000x256 : Shape := ⟨2, ![5000, 256]⟩
abbrev S5000x128 : Shape := ⟨2, ![5000, 128]⟩

abbrev nBuf : Space → Nat
  | .hbm => 65
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S50000, .f32⟩
  | .hbm, ⟨16, _⟩ => ⟨S640000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000x128, .f32⟩
  | .hbm, ⟨34, _⟩ => ⟨S_, .f32⟩
  | .hbm, ⟨35, _⟩ => ⟨S50000x128, .f32⟩
  | .hbm, ⟨36, _⟩ => ⟨S640000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S50000x256, .f32⟩
  | .hbm, ⟨41, _⟩ => ⟨S256x128, .f32⟩
  | .hbm, ⟨42, _⟩ => ⟨S256x128, .bf16⟩
  | .hbm, ⟨43, _⟩ => ⟨S1x128, .f32⟩
  | .hbm, ⟨44, _⟩ => ⟨S50000x128, .f32⟩
  | .hbm, ⟨45, _⟩ => ⟨S_, .i32⟩
  | .hbm, ⟨46, _⟩ => ⟨S640000, .i32⟩
  | .hbm, ⟨47, _⟩ => ⟨S640000, .i1⟩
  | .hbm, ⟨48, _⟩ => ⟨S_, .i32⟩
  | .hbm, ⟨49, _⟩ => ⟨S640000, .i32⟩
  | .hbm, ⟨50, _⟩ => ⟨S640000, .i32⟩
  | .hbm, ⟨51, _⟩ => ⟨S640000, .i32⟩
  | .hbm, ⟨52, _⟩ => ⟨S640000x1, .i32⟩
  | .hbm, ⟨53, _⟩ => ⟨S640000x128, .f32⟩
  | .hbm, ⟨54, _⟩ => ⟨S_, .f32⟩
  | .hbm, ⟨55, _⟩ => ⟨S50000x128, .f32⟩
  | .hbm, ⟨56, _⟩ => ⟨S640000x1, .i32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S50000x256, .f32⟩
  | .hbm, ⟨61, _⟩ => ⟨S256x128, .f32⟩
  | .hbm, ⟨62, _⟩ => ⟨S256x128, .bf16⟩
  | .hbm, ⟨63, _⟩ => ⟨S1x128, .f32⟩
  | .hbm, ⟨64, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S256x128, .bf16⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x256, .f32⟩
  | .local _ .vmem, ⟨7, _⟩ => ⟨S5000x256, .f32⟩
  | .local _ .vmem, ⟨8, _⟩ => ⟨S256x128, .bf16⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  concatenates_S128x128_S128x128_S256x128_d0 : Shape.Concatenates [S128x128, S128x128] S256x128 0
  bitsLt_bf16_f32 : FTy.bits .bf16 < FTy.bits .f32
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  scatter_S50000_S640000x1_S640000_n_0_0_1_wf : ScatterDims.WF S50000 S640000x1 S640000 [] [0] [0] 1
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .bf16 = 32 ∨ (Rect.block (s := S256x128) S256x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v25) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v42) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S50000x128, .f32⟩
  | .hbm, ⟨23, _⟩ => ⟨S640000x1, .i32⟩
  | .hbm, ⟨24, _⟩ => ⟨S50000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S50000, .f32⟩
  | .hbm, ⟨29, _⟩ => ⟨S640000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000x128, .f32⟩
  | .hbm, ⟨55, _⟩ => ⟨S_, .f32⟩
  | .hbm, ⟨56, _⟩ => ⟨S50000x128, .f32⟩
  | .hbm, ⟨57, _⟩ => ⟨S640000x1, .i32⟩
  | .hbm, ⟨58, _⟩ => ⟨S50000x128, .f32⟩
  | .hbm, ⟨59, _⟩ => ⟨S_, .f32⟩
  | .hbm, ⟨60, _⟩ => ⟨S640000, .f32⟩
  | .hbm, ⟨61, _⟩ => ⟨S_, .f32⟩
  | .hbm, ⟨62, _⟩ => ⟨S50000, .f32⟩
  | .hbm, ⟨63, _⟩ => ⟨S640000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S50000x128_S128x128_S50000x128_1_0_0_1_n_n_wf : DotDims.WF S50000x128 S128x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibPlainDot.lean ====
/-
  The plain matrix product read at an index.

  A dot record with dimension numbers `<[1], [0], [0], [1]>` and no batch axes (an `M × K` by `K × N` product) is the
  library's `DotDims.plain M K N`; at the ideal values both the kernel's matrix unit product into a zero accumulator
  and the host's `dot_general` of such a record, read at the output index `(a, b)`, are the sum over the contracted
  coordinate `c` of `A (a, c) * B (c, b)` on the extended reals. Stated for any record that EQUALS the plain one, so
  that a program's own record is passed with `rfl`.
-/
import Idealize.ShloMosaic.PureOps.Ideal
import Idealize.ShloMosaic.PureOps.Ideal.Laws
import Idealize.ShloMosaic.Lib.ValueIdx
import Idealize.ShloMosaic.Lib.StackMember

noncomputable section

namespace Cert.LibPlainDot

open Idealize.ShloMosaic Idealize.ShloMosaic.ValueIdx

variable {m k n : Nat} {φ₁ φ₂ : FTy}

/-- The host's product of a plain record, at `(a, b)`: `∑ c, A (a, c) * B (c, b)`. -/
theorem dotGeneral_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- The kernel's product of a plain record into the zero accumulator, at `(a, b)`: the same sum. -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b) = ∑ c : Fin k, A (ix2 a c) * B (ix2 c b) := by
  subst hD
  have h := StackMember.dotGeneral_plain_apply (m := m) (n := n) prec A B a b
  rw [← h]
  show FloatOps.matmul _ prec A B _ (ix2 a b) = FloatOps.dotGeneral _ prec _ A B (ix2 a b)
  rw [Ideal.matmul_constant_zero_apply, Ideal.dotGeneral_apply]

end Cert.LibPlainDot

end
-- ==== Proof.Sage.lean ====
/-
  Two layers of mean aggregation over a graph, each followed by a linear map.

  For node features `h` (one row per node) and an edge list (sources `s`, targets `d`), the aggregate of node `n` is the
  sum of `h[s e]` over the edges `e` with `d e = n`, and the mean divides it by `max (deg n) 1`, `deg n` the number of
  such edges. A layer is `mean · W_l + b + h · W_r`, with `max (·) 0` after it in the first layer.

  The gather and the scatter-add are the SAME host operations in the kernel's program and in the reference; they are
  kept here as opaque terms (`agg`, `deg`), spelt once. What differs is
    * the mean: the reference divides the aggregate by the degree (`meanR`), the kernel multiplies it by the
      degree's reciprocal computed once (`meanK`, `invCol`): on the extended reals `a / y = a * (1 / y)` as soon
      as `y ≠ 0`, and `max (deg n) 1 ≥ 1`;
    * the linear map: the kernel multiplies the row `[mean, h]` (256 entries) by the stacked matrix `[W_l; W_r]` and
      adds the bias (`fusedAt`), the reference adds two 128-term products with the bias between them (`layerAt`):
      a sum over 256 = 128 + 128 indices splits in two, and addition commutes.
-/
import proofs.«430713_j26998164423369_3_alg».proof.KernelIdeal
import proofs.«430713_j26998164423369_3_alg».proof.Proof.Gen.KernelIdeal
import proofs.«430713_j26998164423369_3_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.Sage

open Idealize.ShloMosaic Idealize.ShloMosaic.ValueIdx Cert.KernelIdeal Cert.KernelIdeal.Gen

variable {F : FTy → Type} [FloatOps F]

/-! ## The host chain both programs share -/

/-- Row 0 of the edge list: the sources. -/
def srcRow (ei : (⟨S2x640000, .i32⟩ : BufTy).Contents (Elt F)) : (⟨S640000, .i32⟩ : BufTy).Contents (Elt F) :=
  shapeCast _ (extractStridedSlice S1x640000 ![0, 0] ei slices_S2x640000_S1x640000_0_0) shapeCasts_S1x640000_S640000

/-- Row 1 of the edge list: the targets. -/
def dstRow (ei : (⟨S2x640000, .i32⟩ : BufTy).Contents (Elt F)) : (⟨S640000, .i32⟩ : BufTy).Contents (Elt F) :=
  shapeCast _ (extractStridedSlice S1x640000 ![1, 0] ei slices_S2x640000_S1x640000_1_0) shapeCasts_S1x640000_S640000

/-- The sources as an index column, a negative one wrapped around once. -/
def srcCol (s : (⟨S640000, .i32⟩ : BufTy).Contents (Elt F)) : (⟨S640000x1, .i32⟩ : BufTy).Contents (Elt F) :=
  broadcastInDim S640000x1 ![0] bcast_S640000_S640000x1_0
    (select (cmpi .slt s (broadcastInDim S640000 ![] bcast_S_S640000 (constantI S_ 32 0#32)))
      (addi s (broadcastInDim S640000 ![] bcast_S_S640000 (constantI S_ 32 50000#32))) s)

/-- The targets as an index column. -/
def dstCol (d : (⟨S640000, .i32⟩ : BufTy).Contents (Elt F)) : (⟨S640000x1, .i32⟩ : BufTy).Contents (Elt F) :=
  broadcastInDim S640000x1 ![0] bcast_S640000_S640000x1_0 d

/-- The aggregate: row `n` is the sum of the rows `h[s e]` over the edges `e` whose target is `n`. -/
def agg (h : (⟨S50000x128, .f32⟩ : BufTy).Contents (Elt F)) (s d : (⟨S640000, .i32⟩ : BufTy).Contents (Elt F)) :
    (⟨S50000x128, .f32⟩ : BufTy).Contents (Elt F) :=
  Host.scatterAdd scatter_S50000x128_S640000x1_S640000x128_1_0_0_1
    (broadcastInDim S50000x128 ![] bcast_S_S50000x128 (constant (F := F) S_ .f32 0x00000000#32))
    (dstCol (F := F) d)
    (Host.gather gather_S50000x128_S640000x1_S640000x128_1_0_n_n_0_1_1128 h (srcCol (F := F) s))

/-- The degree: entry `n` counts the edges whose target is `n`. -/
def deg (d : (⟨S640000, .i32⟩ : BufTy).Contents (Elt F)) : (⟨S50000, .f32⟩ : BufTy).Contents (Elt F) :=
  Host.scatterAdd scatter_S50000_S640000x1_S640000_n_0_0_1
    (broadcastInDim S50000 ![] bcast_S_S50000 (constant (F := F) S_ .f32 0x00000000#32))
    (dstCol (F := F) d)
    (broadcastInDim S640000 ![] bcast_S_S640000 (constant (F := F) S_ .f32 0x3F800000#32))

/-- `max (deg n) 1`. -/
def degMax (d : (⟨S640000, .i32⟩ : BufTy).Contents (Elt F)) : (⟨S50000, .f32⟩ : BufTy).Contents (Elt F) :=
  maximumf (deg (F := F) d) (broadcastInDim S50000 ![] bcast_S_S50000 (constant (F := F) S_ .f32 0x3F800000#32))

/-- The kernel's reciprocal degree, as a column: `1 / max (deg n) 1`. -/
def invCol (d : (⟨S640000, .i32⟩ : BufTy).Contents (Elt F)) : (⟨S50000x1, .f32⟩ : BufTy).Contents (Elt F) :=
  broadcastInDim S50000x1 ![0] bcast_S50000_S50000x1_0
    (Host.divf (broadcastInDim S50000 ![] bcast_S_S50000 (constant (F := F) S_ .f32 0x3F800000#32)) (degMax (F := F) d))

/-- The kernel's mean: the aggregate TIMES a reciprocal-degree column. -/
def meanK (h : (⟨S50000x128, .f32⟩ : BufTy).Contents (Elt F)) (s d : (⟨S640000, .i32⟩ : BufTy).Contents (Elt F))
    (inv : (⟨S50000x1, .f32⟩ : BufTy).Contents (Elt F)) : (⟨S50000x128, .f32⟩ : BufTy).Contents (Elt F) :=
  mulf (agg (F := F) h s d) (broadcastInDim S50000x128 ![0, 1] bcast_S50000x1_S50000x128_0_1 inv)

/-- The reference's mean: the aggregate DIVIDED by the degree column. -/
def meanR (h : (⟨S50000x128, .f32⟩ : BufTy).Contents (Elt F)) (s d : (⟨S640000, .i32⟩ : BufTy).Contents (Elt F)) :
    (⟨S50000x128, .f32⟩ : BufTy).Contents (Elt F) :=
  Host.divf (agg (F := F) h s d) (broadcastInDim S50000x128 ![0, 1] bcast_S50000x1_S50000x128_0_1
    (broadcastInDim S50000x1 ![0] bcast_S50000_S50000x1_0 (degMax (F := F) d)))

/-- The kernel's operands of one layer: the row `[mean, h]`, -/
def catRows (a b : (⟨S50000x128, .f32⟩ : BufTy).Contents (Elt F)) : (⟨S50000x256, .f32⟩ : BufTy).Contents (Elt F) :=
  concatenate S50000x256 1 [⟨S50000x128, a⟩, ⟨S50000x128, b⟩] concatenates_S50000x128_S50000x128_S50000x256_d1

/-- the stacked matrix `[W_l; W_r]`, narrowed, -/
def catW (wl wr : (⟨S128x128, .f32⟩ : BufTy).Contents (Elt F)) : (⟨S256x128, .bf16⟩ : BufTy).Contents (Elt F) :=
  truncf .bf16 (concatenate S256x128 0 [⟨S128x128, wl⟩, ⟨S128x128, wr⟩] concatenates_S128x128_S128x128_S256x128_d0) bitsLt_bf16_f32

/-- and the bias as a row. -/
def biasRow (b : (⟨S128, .f32⟩ : BufTy).Contents (Elt F)) : (⟨S1x128, .f32⟩ : BufTy).Contents (Elt F) :=
  shapeCast S1x128 b shapeCasts_S128_S1x128

end Cert.Sage

end
-- ==== Proof.SageLaws.lean ====
/-
  The two laws that join the kernel's spelling of a layer to the reference's, on the extended reals.

  * `meanK_eq_meanR`: the aggregate times the reciprocal of `max (deg n) 1` is the aggregate divided by it. Division
    on the extended reals is `a * y⁻¹` off `y = 0`, and `max (deg n) 1` is at least `1`, so never `0`: no finiteness
    of anything is used.
  * `fusedAt_cat`: the row `[mean, h]` against the stacked `[W_l; W_r]` is a sum over 256 = 128 + 128 indices; the
    first 128 read `mean` and `W_l`, the last 128 read `h` and `W_r`; then `(A + B) + b = (A + b) + B`.
-/
import proofs.«430713_j26998164423369_3_alg».proof.Proof.Sage
import Idealize.ShloMosaic.PureOps.IdealRules

noncomputable section

namespace Cert.Sage

open Idealize.ShloMosaic Idealize.ShloMosaic.ValueIdx Cert.KernelIdeal Cert.KernelIdeal.Gen

/-! ## One layer, index by index -/

/-- The reference's layer at row `p`, column `q`: `(mean · W_l + b) + h · W_r`, then `max (·) 0` if asked. -/
def layerAt (relu : Bool) (mean x : FVec Ideal S50000x128 .f32) (wl : FVec Ideal S128x128 .f32) (b : FVec Ideal S128 .f32)
    (wr : FVec Ideal S128x128 .f32) (p : Fin 50000) (q : Fin 128) : EReal :=
  let s : EReal := ((∑ k : Fin 128, mean (ix2 p k) * wl (ix2 k q)) + b (ix1 q)) + ∑ k : Fin 128, x (ix2 p k) * wr (ix2 k q)
  if relu then max s (Ideal.ofBits .f32 0x00000000#32) else s

/-- The layer as an array. -/
def layer (relu : Bool) (mean x : FVec Ideal S50000x128 .f32) (wl : FVec Ideal S128x128 .f32) (b : FVec Ideal S128 .f32)
    (wr : FVec Ideal S128x128 .f32) : FVec Ideal S50000x128 .f32 :=
  fun i => layerAt relu mean x wl b wr (i 0) (i 1)

/-- The kernel's layer at row `p`, column `q`, of any number `M` of rows (a block's 5000 or the array's 50000): the
    256-term product of the row of `cat` with the column of `w`, plus the bias row's entry, then `max (·) 0` if asked. -/
def fusedAt {M : Nat} (relu : Bool) (cat : FVec Ideal ⟨2, ![M, 256]⟩ .f32) (w : FVec Ideal ⟨2, ![256, 128]⟩ .bf16)
    (b : FVec Ideal ⟨2, ![1, 128]⟩ .f32) (p : Fin M) (q : Fin 128) : EReal :=
  let s : EReal := (∑ k : Fin 256, cat (ix2 p k) * w (ix2 k q)) + b (ix2 0 q)
  if relu then max s (Ideal.ofBits .f32 0x00000000#32) else s

/-- The kernel's layer as an array. -/
def fused {M : Nat} (relu : Bool) (cat : FVec Ideal ⟨2, ![M, 256]⟩ .f32) (w : FVec Ideal ⟨2, ![256, 128]⟩ .bf16)
    (b : FVec Ideal ⟨2, ![1, 128]⟩ .f32) : FVec Ideal ⟨2, ![M, 128]⟩ .f32 :=
  fun i => fusedAt relu cat w b (i 0) (i 1)

/-! ## The mean -/

/-- `a * (1 / y) = a / y` on the extended reals when `y ≠ 0`. -/
theorem mul_one_div (a y : EReal) (hy : y ≠ 0) : a * Ideal.div 1 y = Ideal.div a y := by
  unfold Ideal.div
  rw [if_neg hy, if_neg hy, one_mul]

/-- The pattern of `1.0`. -/
theorem one_f32 : Ideal.ofBits .f32 0x3F800000#32 = 1 := IdealRules.sign_bit.ideal_onePat .f32

/-- A broadcast column read at `(p, q)` is the column at `(p, 0)`. -/
theorem col_apply (v : FVec Ideal S50000x1 .f32) (p : Fin 50000) (q : Fin 128) :
    broadcastInDim S50000x128 ![0, 1] bcast_S50000x1_S50000x128_0_1 v (ix2 p q) = v (ix2 p 0) :=
  broadcastInDim_apply _ bcast_S50000x1_S50000x128_0_1 v (ix2 p q) (ix2 p 0) (fun a => match a with
    | ⟨0, _⟩ => by show p.val = if (50000 : Nat) = 1 then 0 else p.val; rw [if_neg (by decide)]
    | ⟨1, _⟩ => by show 0 = if (1 : Nat) = 1 then 0 else q.val; rw [if_pos rfl])

/-- A vector made a column, read at `(p, 0)`, is the vector at `p`. -/
theorem toCol_apply (v : FVec Ideal S50000 .f32) (p : Fin 50000) :
    broadcastInDim S50000x1 ![0] bcast_S50000_S50000x1_0 v (ix2 p 0) = v (ix1 p) :=
  broadcastInDim_apply _ bcast_S50000_S50000x1_0 v (ix2 p 0) (ix1 p) (fun a => match a with
    | ⟨0, _⟩ => by show p.val = if (50000 : Nat) = 1 then 0 else p.val; rw [if_neg (by decide)])

/-- `max a 1` is not zero. -/
theorem max_one_ne_zero (a : EReal) : max a (Ideal.ofBits .f32 0x3F800000#32) ≠ 0 := by
  rw [one_f32]
  exact ne_of_gt (lt_of_lt_of_le zero_lt_one (le_max_right _ _))

/-- The splat of a constant at an entry. -/
theorem splat_apply (b : BitVec 32) (i : S50000.Idx) :
    broadcastInDim S50000 ![] bcast_S_S50000 (constant (F := Ideal) S_ .f32 b) i = Ideal.ofBits .f32 b := rfl

/-- THE MEAN, for any aggregate `A` and any degree vector `D`: `A` times the column of `1 / max D 1` is `A` divided by
    the column of `max D 1`. Stated over variables: nothing here looks inside an aggregate or a degree. -/
theorem mean_law (A : FVec Ideal S50000x128 .f32) (D : FVec Ideal S50000 .f32) :
    mulf A (broadcastInDim S50000x128 ![0, 1] bcast_S50000x1_S50000x128_0_1
        (broadcastInDim S50000x1 ![0] bcast_S50000_S50000x1_0
          (Host.divf (F := Ideal) (broadcastInDim S50000 ![] bcast_S_S50000 (constant (F := Ideal) S_ .f32 0x3F800000#32))
            (maximumf D (broadcastInDim S50000 ![] bcast_S_S50000 (constant (F := Ideal) S_ .f32 0x3F800000#32))))))
      = Host.divf (F := Ideal) A (broadcastInDim S50000x128 ![0, 1] bcast_S50000x1_S50000x128_0_1
          (broadcastInDim S50000x1 ![0] bcast_S50000_S50000x1_0
            (maximumf D (broadcastInDim S50000 ![] bcast_S_S50000 (constant (F := Ideal) S_ .f32 0x3F800000#32))))) := by
  funext i
  obtain ⟨p, q, rfl⟩ : ∃ (p : Fin 50000) (q : Fin 128), i = ix2 p q := ⟨i 0, i 1, eq_ix2 i⟩
  rw [mulf_apply, col_apply, toCol_apply]
  simp only [Host.divf, Ideal.hostDivf_def]
  rw [col_apply, toCol_apply, maximumf_apply, splat_apply, one_f32]
  exact mul_one_div _ _ (by rw [← one_f32]; exact max_one_ne_zero _)

/-- The kernel's mean (aggregate times reciprocal degree) is the reference's (aggregate divided by degree): the law
    above at the shared aggregate and degree, which stay closed. -/
theorem meanK_eq_meanR (h : (⟨S50000x128, .f32⟩ : BufTy).Contents (Elt Ideal)) (s d : (⟨S640000, .i32⟩ : BufTy).Contents (Elt Ideal)) :
    meanK (F := Ideal) h s d (invCol (F := Ideal) d) = meanR (F := Ideal) h s d := by
  unfold meanK meanR invCol degMax
  exact mean_law (agg (F := Ideal) h s d) (deg (F := Ideal) d)

/-! ## The linear map -/

/-- A sum over 256 indices is the sum over the first 128 plus the sum over the last 128. -/
theorem sum_256 (f : Fin 256 → EReal) :
    ∑ k : Fin 256, f k = (∑ k : Fin 128, f ⟨k.val, by have := k.isLt; omega⟩) + ∑ k : Fin 128, f ⟨k.val + 128, by have := k.isLt; omega⟩ := by
  have h := Fin.sum_univ_add (a := 128) (b := 128) f
  rw [show (∑ k : Fin 256, f k) = ∑ k : Fin (128 + 128), f k from rfl, h]
  refine congrArg₂ (· + ·) (Finset.sum_congr rfl fun k _ => congrArg f (Fin.ext rfl))
    (Finset.sum_congr rfl fun k _ => congrArg f (Fin.ext ?_))
  show 128 + k.val = k.val + 128
  omega

/-- The row `[a, b]` read at `(p, k)`, `k` among the first 128 columns, is `a (p, k)`. -/
theorem catRows_left (a b : FVec Ideal S50000x128 .f32) (p : Fin 50000) (k : Fin 128) :
    catRows (F := Ideal) a b (ix2 p ⟨k.val, by have := k.isLt; omega⟩) = a (ix2 p k) := by
  unfold catRows
  exact concatenate_pair_apply_left (t := S50000x256) (s₁ := S50000x128) (s₂ := S50000x128) (1 : Fin 2) a b
    concatenates_S50000x128_S50000x128_S50000x256_d1 (ix2 p (⟨k.val, by have := k.isLt; omega⟩ : Fin 256)) rfl (ix2 p k)
    (fun c => match c with | ⟨0, _⟩ => rfl | ⟨1, _⟩ => rfl)

/-- The row `[a, b]` read at `(p, k + 128)` is `b (p, k)`. -/
theorem catRows_right (a b : FVec Ideal S50000x128 .f32) (p : Fin 50000) (k : Fin 128) :
    catRows (F := Ideal) a b (ix2 p ⟨k.val + 128, by have := k.isLt; omega⟩) = b (ix2 p k) := by
  unfold catRows
  exact concatenate_pair_apply_right (t := S50000x256) (s₁ := S50000x128) (s₂ := S50000x128) (1 : Fin 2) a b
    concatenates_S50000x128_S50000x128_S50000x256_d1 (ix2 p (⟨k.val + 128, by have := k.isLt; omega⟩ : Fin 256)) rfl rfl (ix2 p k)
    (fun c hc => match c with | ⟨0, _⟩ => rfl | ⟨1, _⟩ => absurd rfl hc) rfl

/-- The stacked matrix `[W_l; W_r]` read at `(k, q)`, `k` among the first 128 rows, is `W_l (k, q)`. -/
theorem catW_top (wl wr : FVec Ideal S128x128 .f32) (k : Fin 128) (q : Fin 128) :
    catW (F := Ideal) wl wr (ix2 ⟨k.val, by have := k.isLt; omega⟩ q) = wl (ix2 k q) := by
  unfold catW
  show concatenate S256x128 0 [⟨S128x128, wl⟩, ⟨S128x128, wr⟩] concatenates_S128x128_S128x128_S256x128_d0 _ = _
  exact concatenate_pair_apply_left (t := S256x128) (s₁ := S128x128) (s₂ := S128x128) (0 : Fin 2) wl wr
    concatenates_S128x128_S128x128_S256x128_d0 (ix2 (⟨k.val, by have := k.isLt; omega⟩ : Fin 256) q) rfl (ix2 k q)
    (fun c => match c with | ⟨0, _⟩ => rfl | ⟨1, _⟩ => rfl)

/-- The stacked matrix read at `(k + 128, q)` is `W_r (k, q)`. -/
theorem catW_bottom (wl wr : FVec Ideal S128x128 .f32) (k : Fin 128) (q : Fin 128) :
    catW (F := Ideal) wl wr (ix2 ⟨k.val + 128, by have := k.isLt; omega⟩ q) = wr (ix2 k q) := by
  unfold catW
  show concatenate S256x128 0 [⟨S128x128, wl⟩, ⟨S128x128, wr⟩] concatenates_S128x128_S128x128_S256x128_d0 _ = _
  exact concatenate_pair_apply_right (t := S256x128) (s₁ := S128x128) (s₂ := S128x128) (0 : Fin 2) wl wr
    concatenates_S128x128_S128x128_S256x128_d0 (ix2 (⟨k.val + 128, by have := k.isLt; omega⟩ : Fin 256) q) rfl rfl (ix2 k q)
    (fun c hc => match c with | ⟨0, _⟩ => absurd rfl hc | ⟨1, _⟩ => rfl) rfl

/-- The bias row read at `(0, q)` is the bias at `q`. -/
theorem biasRow_apply (b : FVec Ideal S128 .f32) (q : Fin 128) : biasRow (F := Ideal) b (ix2 0 q) = b (ix1 q) := by
  unfold biasRow
  exact shapeCast_a_1a_apply b shapeCasts_S128_S1x128 0 q

/-- THE LAYER, the kernel's spelling against the reference's: the fused product over `[mean, h]` and `[W_l; W_r]`
    with the bias row is the two products with the bias between them. -/
theorem fusedAt_cat (relu : Bool) (mean x : FVec Ideal S50000x128 .f32) (wl wr : FVec Ideal S128x128 .f32) (b : FVec Ideal S128 .f32)
    (p : Fin 50000) (q : Fin 128) :
    fusedAt relu (catRows (F := Ideal) mean x) (catW (F := Ideal) wl wr) (biasRow (F := Ideal) b) p q = layerAt relu mean x wl b wr p q := by
  unfold fusedAt layerAt
  have hs : (∑ k : Fin 256, catRows (F := Ideal) mean x (ix2 p k) * catW (F := Ideal) wl wr (ix2 k q)) + biasRow (F := Ideal) b (ix2 0 q)
      = ((∑ k : Fin 128, mean (ix2 p k) * wl (ix2 k q)) + b (ix1 q)) + ∑ k : Fin 128, x (ix2 p k) * wr (ix2 k q) := by
    rw [sum_256, biasRow_apply]
    simp only [catRows_left, catRows_right, catW_top, catW_bottom]
    exact add_right_comm _ _ _
  simp only [hs]

/-- The same for the arrays. -/
theorem fused_cat (relu : Bool) (mean x : FVec Ideal S50000x128 .f32) (wl wr : FVec Ideal S128x128 .f32) (b : FVec Ideal S128 .f32) :
    fused relu (catRows (F := Ideal) mean x) (catW (F := Ideal) wl wr) (biasRow (F := Ideal) b) = layer relu mean x wl b wr :=
  funext fun i => fusedAt_cat relu mean x wl wr b (i 0) (i 1)

end Cert.Sage

end
-- ==== Proof.KernelRegion0.lean ====
/-
  The first pallas_call, from its blocks to its whole output array.

  Its grid has ten points; point `t` is given rows `5000 t … 5000 t + 4999` of the 50000 × 256 operand, the whole
  256 × 128 matrix and the 1 × 128 bias row, and writes rows `5000 t … 5000 t + 4999` of the 50000 × 128 output. The body
  computes, at `(a, q)` of its block, the 256-term product of row `a` with column `q` plus the bias entry `q`
  (and then `max (·) 0` of it):
  that is `fusedAt true` of the three blocks, and a block's entries are the arrays' entries at the shifted row. The ten
  blocks tile the output, so the output array ends as `fused true` of the three operand arrays, whatever those hold
  when the call is entered.
-/
import proofs.«430713_j26998164423369_3_alg».proof.Proof.Gen.KernelIdeal.Frame
import proofs.«430713_j26998164423369_3_alg».proof.Proof.SageLaws
import Idealize.ShloMosaic.Lib.Pipeline.Value

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen Cert.Sage

-- the buffers' contents when the call is entered: anything
variable (V : (c : Dev nD) → (b : Ref sig .tc) → Buf (Elt Ideal) ((c : Thread nD τ).loc b))

theorem hz : (![0, 0] : Fin 2 → Nat) = fun _ => 0 := funext fun a => by fin_cases a <;> rfl

/-- The three operand arrays as the call finds them. -/
abbrev catArr (c : Dev nD) : FVec Ideal S50000x256 .f32 := V c main_v25
abbrev wArr (c : Dev nD) : FVec Ideal S256x128 .bf16 := V c main_v27
abbrev bArr (c : Dev nD) : FVec Ideal S1x128 .f32 := V c main_v28

/-- The body's value at `(a, q)` of its block. -/
theorem pay_apply (x0 : FVec Ideal S5000x256 .f32) (x1 : FVec Ideal S256x128 .bf16) (x2 : FVec Ideal S1x128 .f32)
    (a : Fin 5000) (q : Fin 128) :
    k0_pay1 (F := Ideal) x0 x1 x2 (ix2 a q) = fusedAt true x0 x1 x2 a q := by
  unfold k0_pay1 fusedAt
  simp only [shapeCast_self]
  rw [maximumf_apply, addf_apply,
    Cert.LibPlainDot.matmul_zero_apply dot_S5000x256_S256x128_S5000x128_1_0_0_1_n_n rfl none _ _ a q,
    broadcastTo_1b_ab_apply x2 broadcasts_S1x128_S5000x128 a q]
  rfl

/-- The printed index maps over the grid: the row blocks follow the point, everything else stays at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The row operand's block at point `t`, entry `(a, k)`: the array's row `5000 t + a`. -/
theorem cat_blk (c : Dev nD) (t : Fin cfg0.N) (a : Fin 5000) (k : Fin 256) (r : Fin 50000) (hr : r.val = t.val * 5000 + a.val) :
    (iblk0 V c 0 t : FVec Ideal S5000x256 .f32) (ix2 a k) = catArr V c (ix2 r k) := by
  obtain ⟨e0, e1, -⟩ := idx_facts t
  unfold iblk0
  rw [View.read_apply]
  show V c main_v25 _ = V c main_v25 _
  congr 1
  funext ax
  apply Fin.ext
  match ax with
  | ⟨0, _⟩ => show win0_0.index t (0 : Fin 2) * 5000 + 1 * a.val = r.val; rw [e0, hr]; omega
  | ⟨1, _⟩ => show win0_0.index t (1 : Fin 2) * 256 + 1 * k.val = k.val; rw [e1]; omega

/-- The matrix's block at every point is the matrix. -/
theorem w_blk (c : Dev nD) (t : Fin cfg0.N) (k : Fin 256) (q : Fin 128) :
    (iblk0 V c 1 t : FVec Ideal S256x128 .bf16) (ix2 k q) = wArr V c (ix2 k q) := by
  obtain ⟨-, -, e2, e3, -⟩ := idx_facts t
  unfold iblk0
  rw [View.read_apply]
  show V c main_v27 _ = V c main_v27 _
  congr 1
  funext ax
  apply Fin.ext
  match ax with
  | ⟨0, _⟩ => show win0_1.index t (0 : Fin 2) * 256 + 1 * k.val = k.val; rw [e2]; omega
  | ⟨1, _⟩ => show win0_1.index t (1 : Fin 2) * 128 + 1 * q.val = q.val; rw [e3]; omega

/-- The bias row's block at every point is the bias row. -/
theorem b_blk (c : Dev nD) (t : Fin cfg0.N) (u : Fin 1) (q : Fin 128) :
    (iblk0 V c 2 t : FVec Ideal S1x128 .f32) (ix2 u q) = bArr V c (ix2 u q) := by
  obtain ⟨-, -, -, -, e4, e5, -⟩ := idx_facts t
  unfold iblk0
  rw [View.read_apply]
  show V c main_v28 _ = V c main_v28 _
  congr 1
  funext ax
  apply Fin.ext
  match ax with
  | ⟨0, _⟩ => show win0_2.index t (0 : Fin 2) * 1 + 1 * u.val = u.val; rw [e4]; omega
  | ⟨1, _⟩ => show win0_2.index t (1 : Fin 2) * 128 + 1 * q.val = q.val; rw [e5]; omega

/-- WHAT POINT `t` WRITES BACK is block `t` of `fused true` of the operand arrays. -/
theorem flushed_eq (c : Dev nD) (t : Fin cfg0.N) :
    (dat0 V c).flushed 3 t
      = ((cfg0.win 3).blk t).view.read (Elt Ideal) (fused true (catArr V c) (wArr V c) (bArr V c)) := by
  show (cfg0.win 3).cut (grid0.coords t) ((dat0 V c).after 3 t) = _
  rw [after0_3]
  unfold out0_3
  rw [View.canon_unit_zero hz]
  simp only [View.ld_unit_zero (S := S5000x256) hz, View.ld_unit_zero (S := S256x128) hz, View.ld_unit_zero (S := S1x128) hz]
  obtain ⟨-, -, -, -, -, -, e6, e7⟩ := idx_facts t
  have hN : cfg0.N = 10 := N_0
  funext j
  obtain ⟨a, q, rfl⟩ : ∃ (a : Fin 5000) (q : Fin 128), j = ix2 a q := ⟨j 0, j 1, eq_ix2 j⟩
  have hr : t.val * 5000 + a.val < 50000 := by have := t.isLt; have := a.isLt; omega
  show k0_pay1 (F := Ideal) (iblk0 V c 0 t) (iblk0 V c 1 t) (iblk0 V c 2 t) (ix2 a q)
    = fused true (catArr V c) (wArr V c) (bArr V c) (((cfg0.win 3).blk t).view.emb (ix2 a q))
  have hemb : ((cfg0.win 3).blk t).view.emb (ix2 a q) = ix2 (⟨t.val * 5000 + a.val, hr⟩ : Fin 50000) q := by
    funext ax
    apply Fin.ext
    match ax with
    | ⟨0, _⟩ => show win0_3.index t (0 : Fin 2) * 5000 + 1 * a.val = t.val * 5000 + a.val; rw [e6]; omega
    | ⟨1, _⟩ => show win0_3.index t (1 : Fin 2) * 128 + 1 * q.val = q.val; rw [e7]; omega
  rw [hemb]
  refine (pay_apply _ _ _ a q).trans ?_
  show fusedAt true _ _ _ a q = fusedAt true (catArr V c) (wArr V c) (bArr V c) ⟨t.val * 5000 + a.val, hr⟩ q
  unfold fusedAt
  simp only [fun k => cat_blk V c t a k ⟨t.val * 5000 + a.val, hr⟩ rfl, w_blk V c t, b_blk V c t]

/-- An index of the output array is in point `t`'s block iff each coordinate is in the block's range. -/
theorem mem_blk (t : Fin cfg0.N) (i : S50000x128.Idx) :
    i ∈ ((cfg0.win 3).blk t).view.set
      ↔ ∀ a : Fin 2, win0_3.index t a * S5000x128.size a ≤ (i a).val ∧ (i a).val < win0_3.index t a * S5000x128.size a + S5000x128.size a := by
  show i ∈ ((View.whole main_v29).slice (win0_3.rect t)).set ↔ _
  rw [View.set_slice_whole, Rect.mem_set_unit]
  exact Iff.rfl

/-- The ten blocks tile the output: row `r` is in the block of point `r / 5000`. -/
theorem cover (i : S50000x128.Idx) :
    ∃ t : Fin cfg0.N, (cfg0.win 3).flush t = true ∧ i ∈ ((cfg0.win 3).blk t).view.set := by
  have hN : cfg0.N = 10 := N_0
  have h0 : (i 0).val < 50000 := (i 0).isLt
  have h1 : (i 1).val < 128 := (i 1).isLt
  have ht : (i 0).val / 5000 < cfg0.N := by rw [hN]; omega
  obtain ⟨-, -, -, -, -, -, e6, e7⟩ := idx_facts ⟨(i 0).val / 5000, ht⟩
  refine ⟨⟨(i 0).val / 5000, ht⟩, flush0_3 _, ?_⟩
  rw [mem_blk]
  intro ax
  match ax with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e6]
    show (i 0).val / 5000 * 5000 ≤ (i 0).val ∧ (i 0).val < (i 0).val / 5000 * 5000 + 5000
    omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    rw [e7]
    omega

/-- THE OUTPUT ARRAY after the call: `fused true` of the operand arrays as the call found them. -/
theorem final (c : Dev nD) : (dat0 V c).arrAt 3 cfg0.N = fused true (catArr V c) (wArr V c) (bArr V c) :=
  (dat0 V c).arrAt_eq_of_cover 3 (fused true (catArr V c) (wArr V c) (bArr V c)) (fun t _ => flushed_eq V c t) cover

end Cert.KernelIdeal.Region0

end
-- ==== Proof.KernelRegion1.lean ====
/-
  The second pallas_call, from its blocks to its whole output array.

  Its grid has ten points; point `t` is given rows `5000 t … 5000 t + 4999` of the 50000 × 256 operand, the whole
  256 × 128 matrix and the 1 × 128 bias row, and writes rows `5000 t … 5000 t + 4999` of the 50000 × 128 output. The body
  computes, at `(a, q)` of its block, the 256-term product of row `a` with column `q` plus the bias entry `q`
  (no max after it):
  that is `fusedAt false` of the three blocks, and a block's entries are the arrays' entries at the shifted row. The ten
  blocks tile the output, so the output array ends as `fused false` of the three operand arrays, whatever those hold
  when the call is entered.
-/
import proofs.«430713_j26998164423369_3_alg».proof.Proof.Gen.KernelIdeal.Frame
import proofs.«430713_j26998164423369_3_alg».proof.Proof.SageLaws
import Idealize.ShloMosaic.Lib.Pipeline.Value

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen Cert.Sage

-- the buffers' contents when the call is entered: anything
variable (V : (c : Dev nD) → (b : Ref sig .tc) → Buf (Elt Ideal) ((c : Thread nD τ).loc b))

theorem hz : (![0, 0] : Fin 2 → Nat) = fun _ => 0 := funext fun a => by fin_cases a <;> rfl

/-- The three operand arrays as the call finds them. -/
abbrev catArr (c : Dev nD) : FVec Ideal S50000x256 .f32 := V c main_v42
abbrev wArr (c : Dev nD) : FVec Ideal S256x128 .bf16 := V c main_v44
abbrev bArr (c : Dev nD) : FVec Ideal S1x128 .f32 := V c main_v45

/-- The body's value at `(a, q)` of its block. -/
theorem pay_apply (x0 : FVec Ideal S5000x256 .f32) (x1 : FVec Ideal S256x128 .bf16) (x2 : FVec Ideal S1x128 .f32)
    (a : Fin 5000) (q : Fin 128) :
    k1_pay1 (F := Ideal) x0 x1 x2 (ix2 a q) = fusedAt false x0 x1 x2 a q := by
  unfold k1_pay1 fusedAt
  simp only [shapeCast_self]
  rw [addf_apply,
    Cert.LibPlainDot.matmul_zero_apply dot_S5000x256_S256x128_S5000x128_1_0_0_1_n_n rfl none _ _ a q,
    broadcastTo_1b_ab_apply x2 broadcasts_S1x128_S5000x128 a q]
  rfl

/-- The printed index maps over the grid: the row blocks follow the point, everything else stays at block 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The row operand's block at point `t`, entry `(a, k)`: the array's row `5000 t + a`. -/
theorem cat_blk (c : Dev nD) (t : Fin cfg1.N) (a : Fin 5000) (k : Fin 256) (r : Fin 50000) (hr : r.val = t.val * 5000 + a.val) :
    (iblk1 V c 0 t : FVec Ideal S5000x256 .f32) (ix2 a k) = catArr V c (ix2 r k) := by
  obtain ⟨e0, e1, -⟩ := idx_facts t
  unfold iblk1
  rw [View.read_apply]
  show V c main_v42 _ = V c main_v42 _
  congr 1
  funext ax
  apply Fin.ext
  match ax with
  | ⟨0, _⟩ => show win1_0.index t (0 : Fin 2) * 5000 + 1 * a.val = r.val; rw [e0, hr]; omega
  | ⟨1, _⟩ => show win1_0.index t (1 : Fin 2) * 256 + 1 * k.val = k.val; rw [e1]; omega

/-- The matrix's block at every point is the matrix. -/
theorem w_blk (c : Dev nD) (t : Fin cfg1.N) (k : Fin 256) (q : Fin 128) :
    (iblk1 V c 1 t : FVec Ideal S256x128 .bf16) (ix2 k q) = wArr V c (ix2 k q) := by
  obtain ⟨-, -, e2, e3, -⟩ := idx_facts t
  unfold iblk1
  rw [View.read_apply]
  show V c main_v44 _ = V c main_v44 _
  congr 1
  funext ax
  apply Fin.ext
  match ax with
  | ⟨0, _⟩ => show win1_1.index t (0 : Fin 2) * 256 + 1 * k.val = k.val; rw [e2]; omega
  | ⟨1, _⟩ => show win1_1.index t (1 : Fin 2) * 128 + 1 * q.val = q.val; rw [e3]; omega

/-- The bias row's block at every point is the bias row. -/
theorem b_blk (c : Dev nD) (t : Fin cfg1.N) (u : Fin 1) (q : Fin 128) :
    (iblk1 V c 2 t : FVec Ideal S1x128 .f32) (ix2 u q) = bArr V c (ix2 u q) := by
  obtain ⟨-, -, -, -, e4, e5, -⟩ := idx_facts t
  unfold iblk1
  rw [View.read_apply]
  show V c main_v45 _ = V c main_v45 _
  congr 1
  funext ax
  apply Fin.ext
  match ax with
  | ⟨0, _⟩ => show win1_2.index t (0 : Fin 2) * 1 + 1 * u.val = u.val; rw [e4]; omega
  | ⟨1, _⟩ => show win1_2.index t (1 : Fin 2) * 128 + 1 * q.val = q.val; rw [e5]; omega

/-- WHAT POINT `t` WRITES BACK is block `t` of `fused false` of the operand arrays. -/
theorem flushed_eq (c : Dev nD) (t : Fin cfg1.N) :
    (dat1 V c).flushed 3 t
      = ((cfg1.win 3).blk t).view.read (Elt Ideal) (fused false (catArr V c) (wArr V c) (bArr V c)) := by
  show (cfg1.win 3).cut (grid1.coords t) ((dat1 V c).after 3 t) = _
  rw [after1_3]
  unfold out1_3
  rw [View.canon_unit_zero hz]
  simp only [View.ld_unit_zero (S := S5000x256) hz, View.ld_unit_zero (S := S256x128) hz, View.ld_unit_zero (S := S1x128) hz]
  obtain ⟨-, -, -, -, -, -, e6, e7⟩ := idx_facts t
  have hN : cfg1.N = 10 := N_1
  funext j
  obtain ⟨a, q, rfl⟩ : ∃ (a : Fin 5000) (q : Fin 128), j = ix2 a q := ⟨j 0, j 1, eq_ix2 j⟩
  have hr : t.val * 5000 + a.val < 50000 := by have := t.isLt; have := a.isLt; omega
  show k1_pay1 (F := Ideal) (iblk1 V c 0 t) (iblk1 V c 1 t) (iblk1 V c 2 t) (ix2 a q)
    = fused false (catArr V c) (wArr V c) (bArr V c) (((cfg1.win 3).blk t).view.emb (ix2 a q))
  have hemb : ((cfg1.win 3).blk t).view.emb (ix2 a q) = ix2 (⟨t.val * 5000 + a.val, hr⟩ : Fin 50000) q := by
    funext ax
    apply Fin.ext
    match ax with
    | ⟨0, _⟩ => show win1_3.index t (0 : Fin 2) * 5000 + 1 * a.val = t.val * 5000 + a.val; rw [e6]; omega
    | ⟨1, _⟩ => show win1_3.index t (1 : Fin 2) * 128 + 1 * q.val = q.val; rw [e7]; omega
  rw [hemb]
  refine (pay_apply _ _ _ a q).trans ?_
  show fusedAt false _ _ _ a q = fusedAt false (catArr V c) (wArr V c) (bArr V c) ⟨t.val * 5000 + a.val, hr⟩ q
  unfold fusedAt
  simp only [fun k => cat_blk V c t a k ⟨t.val * 5000 + a.val, hr⟩ rfl, w_blk V c t, b_blk V c t]

/-- An index of the output array is in point `t`'s block iff each coordinate is in the block's range. -/
theorem mem_blk (t : Fin cfg1.N) (i : S50000x128.Idx) :
    i ∈ ((cfg1.win 3).blk t).view.set
      ↔ ∀ a : Fin 2, win1_3.index t a * S5000x128.size a ≤ (i a).val ∧ (i a).val < win1_3.index t a * S5000x128.size a + S5000x128.size a := by
  show i ∈ ((View.whole main_v46).slice (win1_3.rect t)).set ↔ _
  rw [View.set_slice_whole, Rect.mem_set_unit]
  exact Iff.rfl

/-- The ten blocks tile the output: row `r` is in the block of point `r / 5000`. -/
theorem cover (i : S50000x128.Idx) :
    ∃ t : Fin cfg1.N, (cfg1.win 3).flush t = true ∧ i ∈ ((cfg1.win 3).blk t).view.set := by
  have hN : cfg1.N = 10 := N_1
  have h0 : (i 0).val < 50000 := (i 0).isLt
  have h1 : (i 1).val < 128 := (i 1).isLt
  have ht : (i 0).val / 5000 < cfg1.N := by rw [hN]; omega
  obtain ⟨-, -, -, -, -, -, e6, e7⟩ := idx_facts ⟨(i 0).val / 5000, ht⟩
  refine ⟨⟨(i 0).val / 5000, ht⟩, flush1_3 _, ?_⟩
  rw [mem_blk]
  intro ax
  match ax with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    rw [e6]
    show (i 0).val / 5000 * 5000 ≤ (i 0).val ∧ (i 0).val < (i 0).val / 5000 * 5000 + 5000
    omega
  | ⟨1, _⟩ =>
    show win1_3.index ⟨(i 0).val / 5000, ht⟩ (1 : Fin 2) * 128 ≤ (i 1).val ∧ (i 1).val < win1_3.index ⟨(i 0).val / 5000, ht⟩ (1 : Fin 2) * 128 + 128
    rw [e7]
    omega

/-- THE OUTPUT ARRAY after the call: `fused false` of the operand arrays as the call found them. -/
theorem final (c : Dev nD) : (dat1 V c).arrAt 3 cfg1.N = fused false (catArr V c) (wArr V c) (bArr V c) :=
  (dat1 V c).arrAt_eq_of_cover 3 (fused false (catArr V c) (wArr V c) (bArr V c)) (fun t _ => flushed_eq V c t) cover

end Cert.KernelIdeal.Region1

end
-- ==== Proof.SageSpec.lean ====
/-
  The whole computation as one function of the arguments: the hidden layer (with `max (·) 0`) from the node
  features, then the output layer from the hidden layer, both over the same edge list.
-/
import proofs.«430713_j26998164423369_3_alg».proof.Proof.SageLaws

noncomputable section

namespace Cert.Sage

open Idealize.ShloMosaic Idealize.ShloMosaic.ValueIdx Cert.KernelIdeal Cert.KernelIdeal.Gen

/-- A layer read at `(p, q)`. -/
theorem layer_apply (relu : Bool) (mean x : FVec Ideal S50000x128 .f32) (wl : FVec Ideal S128x128 .f32) (b : FVec Ideal S128 .f32)
    (wr : FVec Ideal S128x128 .f32) (p : Fin 50000) (q : Fin 128) :
    layer relu mean x wl b wr (ix2 p q) = layerAt relu mean x wl b wr p q := rfl

/-- With the `max`. -/
theorem layerAt_true (mean x : FVec Ideal S50000x128 .f32) (wl : FVec Ideal S128x128 .f32) (b : FVec Ideal S128 .f32)
    (wr : FVec Ideal S128x128 .f32) (p : Fin 50000) (q : Fin 128) :
    layerAt true mean x wl b wr p q
      = max (((∑ k : Fin 128, mean (ix2 p k) * wl (ix2 k q)) + b (ix1 q)) + ∑ k : Fin 128, x (ix2 p k) * wr (ix2 k q))
          (Ideal.ofBits .f32 0x00000000#32) := rfl

/-- Without it. -/
theorem layerAt_false (mean x : FVec Ideal S50000x128 .f32) (wl : FVec Ideal S128x128 .f32) (b : FVec Ideal S128 .f32)
    (wr : FVec Ideal S128x128 .f32) (p : Fin 50000) (q : Fin 128) :
    layerAt false mean x wl b wr p q
      = ((∑ k : Fin 128, mean (ix2 p k) * wl (ix2 k q)) + b (ix1 q)) + ∑ k : Fin 128, x (ix2 p k) * wr (ix2 k q) := rfl

/-- The hidden layer: `max (mean(x) · W1_l + b1 + x · W1_r) 0`. -/
def hidden (x : FVec Ideal S50000x128 .f32) (ei : (⟨S2x640000, .i32⟩ : BufTy).Contents (Elt Ideal))
    (w1l : FVec Ideal S128x128 .f32) (b1 : FVec Ideal S128 .f32) (w1r : FVec Ideal S128x128 .f32) : FVec Ideal S50000x128 .f32 :=
  layer true (meanR (F := Ideal) x (srcRow (F := Ideal) ei) (dstRow (F := Ideal) ei)) x w1l b1 w1r

/-- The result: `mean(h) · W2_l + b2 + h · W2_r` of the hidden layer `h`. -/
def G (x : FVec Ideal S50000x128 .f32) (ei : (⟨S2x640000, .i32⟩ : BufTy).Contents (Elt Ideal))
    (w1l : FVec Ideal S128x128 .f32) (b1 : FVec Ideal S128 .f32) (w1r : FVec Ideal S128x128 .f32)
    (w2l : FVec Ideal S128x128 .f32) (b2 : FVec Ideal S128 .f32) (w2r : FVec Ideal S128x128 .f32) : FVec Ideal S50000x128 .f32 :=
  layer false (meanR (F := Ideal) (hidden x ei w1l b1 w1r) (srcRow (F := Ideal) ei) (dstRow (F := Ideal) ei)) (hidden x ei w1l b1 w1r) w2l b2 w2r

end Cert.Sage

end
-- ==== Proof.KernelValue.lean ====
/-
  The kernel's program computes `G`.

  @main is: host operations (the edge rows, the degree's reciprocal column, the first mean, the operands of the first
  call), the first call, host operations (the second mean of the first call's output, the operands of the second
  call), the second call. Each call's output array is `fused` of its operand arrays as it finds them; the operand
  arrays are read off the host operations before the call; the first call's output is what the second stretch of host
  operations gathers from. Put together: the hidden layer, then the output layer, each the kernel's spelling of a
  layer, which the two laws turn into the specification's.
-/
import proofs.«430713_j26998164423369_3_alg».proof.Proof.KernelIdealRun
import proofs.«430713_j26998164423369_3_alg».proof.Proof.KernelRegion0
import proofs.«430713_j26998164423369_3_alg».proof.Proof.KernelRegion1
import proofs.«430713_j26998164423369_3_alg».proof.Proof.SageSpec
import Idealize.ShloMosaic.Lib.StableHlo.Run

set_option maxRecDepth 16384

noncomputable section

namespace Cert.KernelIdeal.Whole

open Idealize.ShloMosaic Idealize.ShloMosaic.TcCoe Idealize.SL.Sem Idealize.ShloMosaic.ValueIdx Idealize.ShloMosaic.StableHlo
open Cert.KernelIdeal Cert.KernelIdeal.Gen Cert.Sage

variable (m : (ℓ : Loc nD τ sig) → Buf (Elt Ideal) ℓ) (ρ : Dev nD → PrngReg)

/-- The arguments as launched. -/
abbrev x (c : Dev nD) : FVec Ideal S50000x128 .f32 := m ((c : Thread nD τ).loc main_arg0)
abbrev ei (c : Dev nD) : (⟨S2x640000, .i32⟩ : BufTy).Contents (Elt Ideal) := m ((c : Thread nD τ).loc main_arg1)
abbrev w1l (c : Dev nD) : FVec Ideal S128x128 .f32 := m ((c : Thread nD τ).loc main_arg2)
abbrev b1 (c : Dev nD) : FVec Ideal S128 .f32 := m ((c : Thread nD τ).loc main_arg3)
abbrev w1r (c : Dev nD) : FVec Ideal S128x128 .f32 := m ((c : Thread nD τ).loc main_arg4)
abbrev w2l (c : Dev nD) : FVec Ideal S128x128 .f32 := m ((c : Thread nD τ).loc main_arg5)
abbrev b2 (c : Dev nD) : FVec Ideal S128 .f32 := m ((c : Thread nD τ).loc main_arg6)
abbrev w2r (c : Dev nD) : FVec Ideal S128x128 .f32 := m ((c : Thread nD τ).loc main_arg7)
/-- The edge rows. -/
abbrev sv (c : Dev nD) : (⟨S640000, .i32⟩ : BufTy).Contents (Elt Ideal) := srcRow (F := Ideal) (ei m c)
abbrev dv (c : Dev nD) : (⟨S640000, .i32⟩ : BufTy).Contents (Elt Ideal) := dstRow (F := Ideal) (ei m c)

/-! ## Before the first call -/

/-- The first call's row operand: `[mean(x), x]`, the mean in the kernel's spelling. -/
theorem cat0 (c : Dev nD) : V1 m ρ c main_v25
    = catRows (F := Ideal) (meanK (F := Ideal) (x m c) (sv m c) (dv m c) (invCol (F := Ideal) (dv m c))) (x m c) := by
  show StableHlo.after hostOps0 (W0 m ρ c) (Proc.devRef .tc main_v25) = _
  dsimp only [hostOps0]
  after_results_simp
  unfold catRows
  refine congrArg₂ (fun a b => concatenate S50000x256 1 [⟨S50000x128, a⟩, ⟨S50000x128, b⟩] concatenates_S50000x128_S50000x128_S50000x256_d1) ?_ ?_
  · after_results_simp <;> rfl
  · after_results_simp <;> rfl

/-- Its matrix operand: `[W1_l; W1_r]`. -/
theorem wgt0 (c : Dev nD) : V1 m ρ c main_v27 = catW (F := Ideal) (w1l m c) (w1r m c) := by
  show StableHlo.after hostOps0 (W0 m ρ c) (Proc.devRef .tc main_v27) = _
  dsimp only [hostOps0]
  after_results_simp
  unfold catW
  refine congrArg₂ (fun a b => truncf .bf16 (concatenate S256x128 0 [⟨S128x128, a⟩, ⟨S128x128, b⟩] concatenates_S128x128_S128x128_S256x128_d0) bitsLt_bf16_f32) ?_ ?_
  · after_results_simp <;> rfl
  · after_results_simp <;> rfl

/-- Its bias operand: `b1` as a row. -/
theorem bias0 (c : Dev nD) : V1 m ρ c main_v28 = biasRow (F := Ideal) (b1 m c) := by
  show StableHlo.after hostOps0 (W0 m ρ c) (Proc.devRef .tc main_v28) = _
  dsimp only [hostOps0]
  after_results_simp <;> rfl

/-- The source row, the target row and the reciprocal-degree column, computed before the first call, -/
theorem src1 (c : Dev nD) : W1 m ρ c (Proc.devRef .tc main_v1) = sv m c := by
  show StableHlo.after hostOps0 (W0 m ρ c) (Proc.devRef .tc main_v1) = _
  dsimp only [hostOps0]
  after_results_simp <;> rfl
theorem dst1 (c : Dev nD) : W1 m ρ c (Proc.devRef .tc main_v3) = dv m c := by
  show StableHlo.after hostOps0 (W0 m ρ c) (Proc.devRef .tc main_v3) = _
  dsimp only [hostOps0]
  after_results_simp <;> rfl
theorem inv1 (c : Dev nD) : W1 m ρ c (Proc.devRef .tc main_v12) = invCol (F := Ideal) (dv m c) := by
  show StableHlo.after hostOps0 (W0 m ρ c) (Proc.devRef .tc main_v12) = _
  dsimp only [hostOps0]
  after_results_simp <;> rfl
/-- and the second layer's parameters, are not written by them. -/
theorem w2l1 (c : Dev nD) : W1 m ρ c (Proc.devRef .tc main_arg5) = w2l m c := by
  show StableHlo.after hostOps0 (W0 m ρ c) (Proc.devRef .tc main_arg5) = _
  dsimp only [hostOps0]
  after_results_simp <;> rfl
theorem b21 (c : Dev nD) : W1 m ρ c (Proc.devRef .tc main_arg6) = b2 m c := by
  show StableHlo.after hostOps0 (W0 m ρ c) (Proc.devRef .tc main_arg6) = _
  dsimp only [hostOps0]
  after_results_simp <;> rfl
theorem w2r1 (c : Dev nD) : W1 m ρ c (Proc.devRef .tc main_arg7) = w2r m c := by
  show StableHlo.after hostOps0 (W0 m ρ c) (Proc.devRef .tc main_arg7) = _
  dsimp only [hostOps0]
  after_results_simp <;> rfl

/-! ## After the first call -/

/-- The first call's output is the specification's hidden layer. -/
theorem hidden_eq (c : Dev nD) : W2 m ρ c (Proc.devRef .tc main_v29) = hidden (x m c) (ei m c) (w1l m c) (b1 m c) (w1r m c) := by
  refine (W2_arr m ρ c 3).trans ?_
  rw [Region0.final (V1 m ρ) c]
  dsimp only [Region0.catArr, Region0.wArr, Region0.bArr]
  rw [cat0, wgt0, bias0, meanK_eq_meanR, fused_cat]
  rfl

/-- The call leaves every buffer that is not one of its four arrays as it was. -/
theorem src2 (c : Dev nD) : W2 m ρ c (Proc.devRef .tc main_v1) = sv m c :=
  (W2_of_ne m ρ c main_v1 (by decide)).trans (src1 m ρ c)
theorem dst2 (c : Dev nD) : W2 m ρ c (Proc.devRef .tc main_v3) = dv m c :=
  (W2_of_ne m ρ c main_v3 (by decide)).trans (dst1 m ρ c)
theorem inv2 (c : Dev nD) : W2 m ρ c (Proc.devRef .tc main_v12) = invCol (F := Ideal) (dv m c) :=
  (W2_of_ne m ρ c main_v12 (by decide)).trans (inv1 m ρ c)
theorem w2l2 (c : Dev nD) : W2 m ρ c (Proc.devRef .tc main_arg5) = w2l m c :=
  (W2_of_ne m ρ c main_arg5 (by decide)).trans (w2l1 m ρ c)
theorem b22 (c : Dev nD) : W2 m ρ c (Proc.devRef .tc main_arg6) = b2 m c :=
  (W2_of_ne m ρ c main_arg6 (by decide)).trans (b21 m ρ c)
theorem w2r2 (c : Dev nD) : W2 m ρ c (Proc.devRef .tc main_arg7) = w2r m c :=
  (W2_of_ne m ρ c main_arg7 (by decide)).trans (w2r1 m ρ c)

/-! ## Before the second call -/

/-- The second call's row operand: `[mean(h), h]` of the first call's output `h`, over the buffers as the first call
    left them. -/
theorem cat1 (c : Dev nD) : V3 m ρ c main_v42
    = catRows (F := Ideal) (meanK (F := Ideal) (W2 m ρ c (Proc.devRef .tc main_v29)) (W2 m ρ c (Proc.devRef .tc main_v1))
        (W2 m ρ c (Proc.devRef .tc main_v3)) (W2 m ρ c (Proc.devRef .tc main_v12))) (W2 m ρ c (Proc.devRef .tc main_v29)) := by
  show StableHlo.after hostOps1 (W2 m ρ c) (Proc.devRef .tc main_v42) = _
  dsimp only [hostOps1]
  after_results_simp
  unfold catRows
  refine congrArg₂ (fun a b => concatenate S50000x256 1 [⟨S50000x128, a⟩, ⟨S50000x128, b⟩] concatenates_S50000x128_S50000x128_S50000x256_d1) ?_ ?_
  · after_results_simp <;> rfl
  · after_results_simp <;> rfl

/-- Its matrix operand: `[W2_l; W2_r]`. -/
theorem wgt1 (c : Dev nD) : V3 m ρ c main_v44
    = catW (F := Ideal) (W2 m ρ c (Proc.devRef .tc main_arg5)) (W2 m ρ c (Proc.devRef .tc main_arg7)) := by
  show StableHlo.after hostOps1 (W2 m ρ c) (Proc.devRef .tc main_v44) = _
  dsimp only [hostOps1]
  after_results_simp
  unfold catW
  refine congrArg₂ (fun a b => truncf .bf16 (concatenate S256x128 0 [⟨S128x128, a⟩, ⟨S128x128, b⟩] concatenates_S128x128_S128x128_S256x128_d0) bitsLt_bf16_f32) ?_ ?_
  · after_results_simp <;> rfl
  · after_results_simp <;> rfl

/-- Its bias operand: `b2` as a row. -/
theorem bias1 (c : Dev nD) : V3 m ρ c main_v45 = biasRow (F := Ideal) (W2 m ρ c (Proc.devRef .tc main_arg6)) := by
  show StableHlo.after hostOps1 (W2 m ρ c) (Proc.devRef .tc main_v45) = _
  dsimp only [hostOps1]
  after_results_simp <;> rfl

/-! ## The result -/

/-- THE KERNEL'S PROGRAM ENDS WITH `G` OF ITS ARGUMENTS in the result buffer. -/
theorem result_eq (c : Dev nD) : W4 m ρ c (Proc.devRef .tc main_v46)
    = G (x m c) (ei m c) (w1l m c) (b1 m c) (w1r m c) (w2l m c) (b2 m c) (w2r m c) := by
  refine (W4_arr m ρ c 3).trans ?_
  rw [Region1.final (V3 m ρ) c]
  dsimp only [Region1.catArr, Region1.wArr, Region1.bArr]
  rw [cat1, wgt1, bias1, src2, dst2, inv2, w2l2, b22, w2r2, hidden_eq, meanK_eq_meanR, fused_cat]
  rfl

/-- The run, read: the result buffer at `G` of the arguments, the arguments unchanged. -/
theorem run : θ_run defs (onTc (τ := τ) (main (F := Ideal))) ⟨m, fun _ => 0, ρ⟩ (fun r => ∀ c : Dev nD,
      r.2.mem ((c.tc : Thread nD τ).loc main_v46) = G (x m c) (ei m c) (w1l m c) (b1 m c) (w1r m c) (w2l m c) (b2 m c) (w2r m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Cert.KernelIdeal.Run.run_result (F := Ideal) m ρ)

end Cert.KernelIdeal.Whole

end
-- ==== Proof.RefValue.lean ====
/-
  The reference computes `G`.

  Its program is the same gather, scatter-add and degree count as the kernel's program (the shared host chain, equal
  term for term), the mean by division, and per layer two 128-term products with the bias added between them; read
  at `(p, q)` that is the layer of the specification, literally.
-/
import proofs.«430713_j26998164423369_3_alg».proof.Proof.Gen.ReferenceIdeal.Read
import proofs.«430713_j26998164423369_3_alg».proof.Proof.SageSpec

noncomputable section

namespace Cert.RefSide

open Idealize.ShloMosaic Idealize.ShloMosaic.ValueIdx
open Cert.ReferenceIdeal Cert.ReferenceIdeal.Gen Cert.ReferenceIdeal.Read
open Cert.Sage

/-- The reference's linear stage of a layer: `(mean · W_l + b) + h · W_r`, as its host operations. -/
def linR (mean h : FVec Ideal S50000x128 .f32) (wl : FVec Ideal S128x128 .f32) (b : FVec Ideal S128 .f32)
    (wr : FVec Ideal S128x128 .f32) : FVec Ideal S50000x128 .f32 :=
  addf (addf (Host.dotGeneral dot_S50000x128_S128x128_S50000x128_1_0_0_1_n_n none mean wl)
      (broadcastInDim S50000x128 ![0, 1] bcast_S1x128_S50000x128_0_1 (broadcastInDim S1x128 ![1] bcast_S128_S1x128_1 b)))
    (Host.dotGeneral dot_S50000x128_S128x128_S50000x128_1_0_0_1_n_n none h wr)

/-- The bias, broadcast to every row, read at `(p, q)`. -/
theorem bias_apply (b : FVec Ideal S128 .f32) (p : Fin 50000) (q : Fin 128) :
    broadcastInDim S50000x128 ![0, 1] bcast_S1x128_S50000x128_0_1 (broadcastInDim S1x128 ![1] bcast_S128_S1x128_1 b) (ix2 p q) = b (ix1 q) := by
  rw [broadcastInDim_apply _ bcast_S1x128_S50000x128_0_1 _ (ix2 p q) (ix2 0 q) (fun a => match a with
      | ⟨0, _⟩ => by show 0 = if (1 : Nat) = 1 then 0 else p.val; rw [if_pos rfl]
      | ⟨1, _⟩ => by show q.val = if (128 : Nat) = 1 then 0 else q.val; rw [if_neg (by decide)]),
    broadcastInDim_apply _ bcast_S128_S1x128_1 b (ix2 0 q) (ix1 q) (fun a => match a with
      | ⟨0, _⟩ => by show q.val = if (128 : Nat) = 1 then 0 else q.val; rw [if_neg (by decide)])]

/-- The linear stage at `(p, q)`. -/
theorem linR_apply (mean h : FVec Ideal S50000x128 .f32) (wl : FVec Ideal S128x128 .f32) (b : FVec Ideal S128 .f32)
    (wr : FVec Ideal S128x128 .f32) (p : Fin 50000) (q : Fin 128) :
    linR mean h wl b wr (ix2 p q)
      = ((∑ k : Fin 128, mean (ix2 p k) * wl (ix2 k q)) + b (ix1 q)) + ∑ k : Fin 128, h (ix2 p k) * wr (ix2 k q) := by
  unfold linR
  rw [addf_apply, addf_apply, bias_apply,
    Cert.LibPlainDot.dotGeneral_apply dot_S50000x128_S128x128_S50000x128_1_0_0_1_n_n rfl none mean wl p q,
    Cert.LibPlainDot.dotGeneral_apply dot_S50000x128_S128x128_S50000x128_1_0_0_1_n_n rfl none h wr p q]

variable (x0 : (⟨S50000x128, .f32⟩ : BufTy).Contents (Elt Ideal)) (x1 : (⟨S2x640000, .i32⟩ : BufTy).Contents (Elt Ideal))
  (x2 : (⟨S128x128, .f32⟩ : BufTy).Contents (Elt Ideal)) (x3 : (⟨S128, .f32⟩ : BufTy).Contents (Elt Ideal))
  (x4 x5 : (⟨S128x128, .f32⟩ : BufTy).Contents (Elt Ideal)) (x6 : (⟨S128, .f32⟩ : BufTy).Contents (Elt Ideal))
  (x7 : (⟨S128x128, .f32⟩ : BufTy).Contents (Elt Ideal))

/-- The reference's first mean is the specification's, of the node features: the same host chain. -/
theorem mean1_eq : val_main_v22 (F := Ideal) x0 x1 = meanR (F := Ideal) x0 (srcRow (F := Ideal) x1) (dstRow (F := Ideal) x1) := rfl

/-- Before the `max`, the first layer is the linear stage of that mean and the node features. -/
theorem pre1_eq : val_main_v28 (F := Ideal) x0 x1 x2 x3 x4 = linR (val_main_v22 (F := Ideal) x0 x1) x0 x2 x3 x4 := rfl

/-- The zero the reference's `max` compares with, at any entry. -/
theorem relu_zero (i : S50000x128.Idx) : val_main_call0_v0 (F := Ideal) i = Ideal.ofBits .f32 0x00000000#32 := rfl

/-- The reference's hidden layer is the specification's. -/
theorem hidden_eq : val_main_v29 (F := Ideal) x0 x1 x2 x3 x4 = Cert.Sage.hidden x0 x1 x2 x3 x4 := by
  funext i
  obtain ⟨p, q, rfl⟩ : ∃ (p : Fin 50000) (q : Fin 128), i = ix2 p q := ⟨i 0, i 1, eq_ix2 i⟩
  rw [val_main_v29_apply, pre1_eq, linR_apply, mean1_eq, relu_zero, Ideal.maximumf_def]
  unfold Cert.Sage.hidden
  rw [layer_apply, layerAt_true]

/-- The reference's second mean is the specification's, of its hidden layer. -/
theorem mean2_eq : val_main_v48 (F := Ideal) x0 x1 x2 x3 x4
    = meanR (F := Ideal) (val_main_v29 (F := Ideal) x0 x1 x2 x3 x4) (srcRow (F := Ideal) x1) (dstRow (F := Ideal) x1) := rfl

/-- The result is the linear stage of that mean and the hidden layer. -/
theorem out_eq : val_main_v54 (F := Ideal) x0 x1 x2 x3 x4 x5 x6 x7
    = linR (val_main_v48 (F := Ideal) x0 x1 x2 x3 x4) (val_main_v29 (F := Ideal) x0 x1 x2 x3 x4) x5 x6 x7 := rfl

/-- THE REFERENCE IS `G`. -/
theorem ref_eq : val_main_v54 (F := Ideal) x0 x1 x2 x3 x4 x5 x6 x7 = G x0 x1 x2 x3 x4 x5 x6 x7 := by
  funext i
  obtain ⟨p, q, rfl⟩ : ∃ (p : Fin 50000) (q : Fin 128), i = ix2 p q := ⟨i 0, i 1, eq_ix2 i⟩
  rw [out_eq, linR_apply, mean2_eq, hidden_eq]
  unfold Cert.Sage.G
  rw [layer_apply, layerAt_false]

end Cert.RefSide

end
-- ==== Proof.lean ====
/-
  A two-layer graph network by mean aggregation, the kernel's program against its reference.

  Both programs gather the source rows of 640000 edges, scatter-add them into the 50000 target rows, count the
  targets' degrees, take the mean, and apply a linear map per layer (`mean · W_l + b + h · W_r`, with `max (·) 0` after
  the first). These host operations are the same text in both. The kernel's program multiplies the aggregate by the
  reciprocal of `max (deg) 1` where the reference divides by it — equal on the extended reals because that divisor
  is at least `1` — and computes each layer in a pallas_call as ONE product of the row `[mean, h]` with the stacked
  matrix `[W_l; W_r]`, ten row blocks of 5000, where the reference adds two products with the bias between them —
  equal because a sum over 256 = 128 + 128 indices splits and addition commutes. No finiteness of the inputs is used.

  * `Proof/Sage.lean`, `SageLaws.lean`, `SageSpec.lean`: the shared host chain, the two laws, and the whole
    computation `G` as one function of the arguments;
  * `Proof/RefValue.lean`: the reference's result is `G`;
  * `Proof/KernelRegion0.lean`, `KernelRegion1.lean`: each call's output array from its blocks;
  * `Proof/KernelIdealRun.lean`, `KernelValue.lean`: the kernel's program's result is `G`.
  The frames of the two kernel programs are the generated ones; the reference's is its generated run.
-/
import proofs.«430713_j26998164423369_3_alg».proof.Defs
import proofs.«430713_j26998164423369_3_alg».proof.Proof.Gen.Kernel
import proofs.«430713_j26998164423369_3_alg».proof.Proof.Gen.Kernel.Skeleton
import proofs.«430713_j26998164423369_3_alg».proof.Proof.Gen.Kernel.Launch
import proofs.«430713_j26998164423369_3_alg».proof.Proof.Gen.Kernel.Points
import proofs.«430713_j26998164423369_3_alg».proof.Proof.Gen.Kernel.Frame
import proofs.«430713_j26998164423369_3_alg».proof.Proof.Gen.KernelIdeal
import proofs.«430713_j26998164423369_3_alg».proof.Proof.Gen.KernelIdeal.Skeleton
import proofs.«430713_j26998164423369_3_alg».proof.Proof.Gen.KernelIdeal.Launch
import proofs.«430713_j26998164423369_3_alg».proof.Proof.Gen.KernelIdeal.Points
import proofs.«430713_j26998164423369_3_alg».proof.Proof.Gen.KernelIdeal.Frame
import proofs.«430713_j26998164423369_3_alg».proof.Proof.Gen.ReferenceIdeal
import proofs.«430713_j26998164423369_3_alg».proof.Proof.Gen.Pre_finite_inputs
import proofs.«430713_j26998164423369_3_alg».proof.Proof.Gen.ReferenceIdeal.Run
import proofs.«430713_j26998164423369_3_alg».proof.Proof.Gen.ReferenceIdeal.Read
import proofs.«430713_j26998164423369_3_alg».proof.Proof.KernelValue
import proofs.«430713_j26998164423369_3_alg».proof.Proof.RefValue
import Idealize.ShloMosaic.Adequacy
import Idealize.ShloMosaic.Init

noncomputable section

namespace Cert.Proof

open Idealize.ShloMosaic Idealize.SL.Sem

/-- The word-level kernel program runs and keeps its arguments: the generated frame. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and keeps its arguments: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with `G` of their arguments in the result buffer, and the arguments agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v54_eq, Cert.RefSide.ref_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
